-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x64x1024 : Shape := ⟨3, ![128, 64, 1024]⟩
abbrev S128x1024 : Shape := ⟨2, ![128, 1024]⟩
abbrev S1024x1024 : Shape := ⟨2, ![1024, 1024]⟩
abbrev S_ : Shape := ⟨0, ![]⟩

class Facts : Prop where
  bcast_S_S128x64x1024 : S_.BroadcastsInDim S128x64x1024 (![] : Fin 0 → Fin S128x64x1024.rank)
  reducesTo_S128x64x1024_S_d0_1_2 : S128x64x1024.ReducesTo [0, 1, 2] S_
  h_S_ : 0 < S_.numel
  bcast_S_S128x1024 : S_.BroadcastsInDim S128x1024 (![] : Fin 0 → Fin S128x1024.rank)
  reducesTo_S128x1024_S_d0_1 : S128x1024.ReducesTo [0, 1] S_
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S128x64x1024 .f32) (main_arg1 : FVec F S128x1024 .f32) (main_arg2 : FVec F S1024x1024 .f32) : IVec S_ 1 :=
  let main_v0 : FVec F S128x64x1024 .f32 := Host.absf main_arg0
  let main_cst : FVec F S_ .f32 := constant S_ .f32 0x7F800000#32
  let main_v1 : FVec F S128x64x1024 .f32 := broadcastInDim S128x64x1024 ![] bcast_S_S128x64x1024 main_cst
  let main_v2 : IVec S128x64x1024 1 := cmpf .olt main_v0 main_v1
  let main_c : IVec S_ 1 := constantI S_ 1 1#1
  let main_v3 : IVec S_ 1 := (fun x v => Host.reduce IntOp.andi x v reducesTo_S128x64x1024_S_d0_1_2 h_S_) main_v2 main_c
  let main_v4 : FVec F S128x1024 .f32 := Host.absf main_arg1
  let main_cst_0 : FVec F S_ .f32 := constant S_ .f32 0x7F800000#32
  let main_v5 : FVec F S128x1024 .f32 := broadcastInDim S128x1024 ![] bcast_S_S128x1024 main_cst_0
  let main_v6 : IVec S128x1024 1 := cmpf .olt main_v4 main_v5
  let main_c_1 : IVec S_ 1 := constantI S_ 1 1#1
  let main_v7 : IVec S_ 1 := (fun x v => Host.reduce IntOp.andi x v reducesTo_S128x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  main_v13
-- ==== Kernel.lean ====
abbrev S128x64x1024 : Shape := ⟨3, ![128, 64, 1024]⟩
abbrev S128x1024 : Shape := ⟨2, ![128, 1024]⟩
abbrev S1024x1024 : Shape := ⟨2, ![1024, 1024]⟩
abbrev S32x64x1024 : Shape := ⟨3, ![32, 64, 1024]⟩
abbrev S32x1024 : Shape := ⟨2, ![32, 1024]⟩

abbrev nBuf : Space → Nat
  | .hbm => 4
  | .vmem => 7
  | .smem => 0
  | _ => 0

abbrev bufTy : (tb : Table) → Fin (tcTables nBuf tb) → BufTy
  | .hbm, ⟨0, _⟩ => ⟨S128x64x1024, .f32⟩
  | .hbm, ⟨1, _⟩ => ⟨S128x1024, .f32⟩
  | .hbm, ⟨2, _⟩ => ⟨S1024x1024, .f32⟩
  | .hbm, ⟨3, _⟩ => ⟨S128x1024, .f32⟩
  | .local _ .vmem, ⟨0, _⟩ => ⟨S32x64x1024, .f32⟩
  | .local _ .vmem, ⟨1, _⟩ => ⟨S32x64x1024, .f32⟩
  | .local _ .vmem, ⟨2, _⟩ => ⟨S32x1024, .f32⟩
  | .local _ .vmem, ⟨3, _⟩ => ⟨S32x1024, .f32⟩
  | .local _ .vmem, ⟨4, _⟩ => ⟨S1024x1024, .f32⟩
  | .local _ .vmem, ⟨5, _⟩ => ⟨S32x1024, .f32⟩
  | .local _ .vmem, ⟨6, _⟩ => ⟨S32x1024, .f32⟩
  | _, _ => ⟨S128x64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S32x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S32x64x1024_S32x64x1024_0_0_0 : ∀ a, (![0, 0, 0] : Fin 3 → Nat) a + S32x64x1024.size a ≤ S32x64x1024.size a
  h_S32x64x1024 : 0 < S32x64x1024.numel
  reduces_S32x64x1024_S32x1024 : S32x64x1024.Reduces [1] S32x1024
  inb_S32x1024_S32x1024_0_0 : ∀ a, (![0, 0] : Fin 2 → Nat) a + S32x1024.size a ≤ S32x1024.size a
  h_S32x1024 : 0 < S32x1024.numel
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  dot_S32x1024_S1024x1024_S32x1024_1_1_0_0_n_n_wf : DotDims.WF S32x1024 S1024x1024 S32x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x64x1024.size a ≤ S128x64x1024.size a
  hwx0_0 : ∀ i : grid0.Coords, EltTy.bits .f32 = 32 ∨ (Rect.block (s := S128x64x1024) S32x64x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x1024.size a ≤ S128x1024.size a
  hwx0_1 : ∀ i : grid0.Coords, EltTy.bits .f32 = 32 ∨ (Rect.block (s := S128x1024) S32x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .f32 = 32 ∨ (Rect.block (s := S1024x1024) S1024x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x1024.size a ≤ S128x1024.size a
  hwx0_3 : ∀ i : grid0.Coords, EltTy.bits .f32 = 32 ∨ (Rect.block (s := S128x1024) S32x1024.size (cc0_transform_3 i) (hinb0_3 i)).WholeWords (EltTy.packing .f32)

variable [Facts₀]

def dot_S32x1024_S1024x1024_S32x1024_1_1_0_0_n_n : DotDims S32x1024 S1024x1024 S32x1024 where
  lhsContracting := [1]
  rhsContracting := [1]
  lhsNonContracting := [0]
  rhsNonContracting := [0]
  lhsBatch := []
  rhsBatch := []
  wf := dot_S32x1024_S1024x1024_S32x1024_1_1_0_0_n_n_wf

abbrev win0_0 : Pipeline.Window sig grid0 :=
  Pipeline.Window.ofSpec (Memref.whole main_arg0) S32x64x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S32x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S128x64x1024 : Shape := ⟨3, ![128, 64, 1024]⟩
abbrev S128x1024 : Shape := ⟨2, ![128, 1024]⟩
abbrev S1024x1024 : Shape := ⟨2, ![1024, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S128x64x1024, .f32⟩
  | .hbm, ⟨1, _⟩ => ⟨S128x1024, .f32⟩
  | .hbm, ⟨2, _⟩ => ⟨S1024x1024, .f32⟩
  | .hbm, ⟨3, _⟩ => ⟨S_, .f32⟩
  | .hbm, ⟨4, _⟩ => ⟨S128x1024, .f32⟩
  | .hbm, ⟨5, _⟩ => ⟨S128x1024, .f32⟩
  | .hbm, ⟨6, _⟩ => ⟨S128x1024, .f32⟩
  | _, _ => ⟨S128x64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩

abbrev nD : Nat := 1
abbrev τ : Topo := Topo.v7x

variable {F : FTy → Type} [FloatOps F]

class Facts₀ : Prop where
  reducesTo_S128x64x1024_S128x1024_d1 : S128x64x1024.ReducesTo [1] S128x1024
  h_S_ : 0 < S_.numel
  dot_S128x1024_S1024x1024_S128x1024_1_1_0_0_n_n_wf : DotDims.WF S128x1024 S1024x1024 S128x1024 [1] [1] [0] [0] [] []

variable [Facts₀]

def dot_S128x1024_S1024x1024_S128x1024_1_1_0_0_n_n : DotDims S128x1024 S1024x1024 S128x1024 where
  lhsContracting := [1]
  rhsContracting := [1]
  lhsNonContracting := [0]
  rhsNonContracting := [0]
  lhsBatch := []
  rhsBatch := []
  wf := dot_S128x1024_S1024x1024_S128x1024_1_1_0_0_n_n_wf

class Facts : Prop extends Facts₀ where

variable [Facts]
-- ==== Proof.Spec.lean ====
/-
  The function both programs compute, index by index over the extended reals.

  For a batch row `b` and an output channel `c`:
    out[b, c] = (Σ_k cloth[b, k, c]) · (Σ_j body[b, j] · f[c, j]),
  the sum of the cloth latent over its 64 positions times the (b, c) entry of body · fᵀ.
  Both sums are finite sums in the commutative monoid of the extended reals, so neither the
  order of summation nor any tiling of the batch axis changes them.
-/
import Idealize.ShloMosaic.PureOps.Ideal
import Idealize.ShloMosaic.Lib.ValueIdx

noncomputable section

open scoped BigOperators

namespace Cert.Fusion

open Idealize.ShloMosaic Idealize.ShloMosaic.ValueIdx

/-- The fused result at an index `(b, c)`: the positional sum of `cloth` at `(b, ·, c)` times the
    inner product of row `b` of `body` with row `c` of `f`. -/
def fused (cloth : FVec Ideal ⟨3, ![128, 64, 1024]⟩ .f32) (body : FVec Ideal ⟨2, ![128, 1024]⟩ .f32)
    (f : FVec Ideal ⟨2, ![1024, 1024]⟩ .f32) : FVec Ideal ⟨2, ![128, 1024]⟩ .f32 :=
  fun i => (∑ k : Fin 64, cloth (ix3 (n0 := 128) (n1 := 64) (n2 := 1024) (i 0) k (i 1)))
    * (∑ j : Fin 1024, body (ix2 (n0 := 128) (n1 := 1024) (i 0) j) * f (ix2 (n0 := 1024) (n1 := 1024) (i 1) j))

/-- The same, read at explicit coordinates. -/
theorem fused_apply (cloth : FVec Ideal ⟨3, ![128, 64, 1024]⟩ .f32) (body : FVec Ideal ⟨2, ![128, 1024]⟩ .f32)
    (f : FVec Ideal ⟨2, ![1024, 1024]⟩ .f32) (b : Fin 128) (c : Fin 1024) :
    fused cloth body f (ix2 b c)
      = (∑ k : Fin 64, cloth (ix3 b k c)) * (∑ j : Fin 1024, body (ix2 b j) * f (ix2 c j)) := rfl

end Cert.Fusion

end
-- ==== Proof.Payload.lean ====
/-
  What the kernel body stores, read at one entry of a batch tile.

  On a tile of 32 batch rows the body sums the cloth tile over its 64 positions, contracts the
  second axis of the body tile with the second axis of the whole matrix `f` (both narrowed to
  bf16 first, which changes nothing over the extended reals) into a zero accumulator, and
  multiplies the two results. At row `p` of the tile and channel `q` that is
  `(Σ_k cloth[p, k, q]) · (Σ_j body[p, j] · f[q, j])`.
-/
import proofs.«120858_j74045236183240_1_alg».proof.Proof.Gen.KernelIdeal.Skeleton
import Idealize.ShloMosaic.Lib.ValueIdx
import Idealize.ShloMosaic.PureOps.Ideal.Laws

noncomputable section

open scoped BigOperators

namespace Cert.Fusion

open Idealize.ShloMosaic Idealize.ShloMosaic.ValueIdx Cert.KernelIdeal Cert.KernelIdeal.Gen

/-- The dimension numbers of the tile's contraction: second axis against second axis. -/
abbrev tileDot : DotDims S32x1024 S1024x1024 S32x1024 := dot_S32x1024_S1024x1024_S32x1024_1_1_0_0_n_n

theorem tile_lhs_0 (i : S32x1024.Idx) (q : dot_S32x1024_S1024x1024_S32x1024_1_1_0_0_n_n.contr.Idx) :
    (dot_S32x1024_S1024x1024_S32x1024_1_1_0_0_n_n.lhsIdx i q 0).val = (i 0).val := by
  unfold DotDims.lhsIdx
  rw [dif_neg (show ¬(0 : Fin S32x1024.rank) ∈ dot_S32x1024_S1024x1024_S32x1024_1_1_0_0_n_n.lhsBatch by decide), dif_pos (show (0 : Fin S32x1024.rank) ∈ dot_S32x1024_S1024x1024_S32x1024_1_1_0_0_n_n.lhsNonContracting by decide)]
  rfl
theorem tile_lhs_1 (i : S32x1024.Idx) (q : dot_S32x1024_S1024x1024_S32x1024_1_1_0_0_n_n.contr.Idx) :
    (dot_S32x1024_S1024x1024_S32x1024_1_1_0_0_n_n.lhsIdx i q 1).val = (q ⟨0, by decide⟩).val :=
  dot_S32x1024_S1024x1024_S32x1024_1_1_0_0_n_n.lhsIdx_val_of_single rfl i q
theorem tile_rhs_0 (i : S32x1024.Idx) (q : dot_S32x1024_S1024x1024_S32x1024_1_1_0_0_n_n.contr.Idx) :
    (dot_S32x1024_S1024x1024_S32x1024_1_1_0_0_n_n.rhsIdx i q 0).val = (i 1).val := by
  unfold DotDims.rhsIdx
  rw [dif_neg (show ¬(0 : Fin S1024x1024.rank) ∈ dot_S32x1024_S1024x1024_S32x1024_1_1_0_0_n_n.rhsBatch by decide), dif_pos (show (0 : Fin S1024x1024.rank) ∈ dot_S32x1024_S1024x1024_S32x1024_1_1_0_0_n_n.rhsNonContracting by decide)]
  rfl
theorem tile_rhs_1 (i : S32x1024.Idx) (q : dot_S32x1024_S1024x1024_S32x1024_1_1_0_0_n_n.contr.Idx) :
    (dot_S32x1024_S1024x1024_S32x1024_1_1_0_0_n_n.rhsIdx i q 1).val = (q ⟨0, by decide⟩).val :=
  dot_S32x1024_S1024x1024_S32x1024_1_1_0_0_n_n.rhsIdx_val_of_single rfl i q

/-- The tile's contraction into the zero accumulator, at row `p` and channel `q`: the inner product of
    row `p` of the left operand with row `q` of the right one. -/
theorem tile_matmul_apply {φ₁ φ₂ : FTy} (l : FVec Ideal S32x1024 φ₁) (r : FVec Ideal S1024x1024 φ₂) (p : Fin 32) (q : Fin 1024) :
    matmul (F := Ideal) dot_S32x1024_S1024x1024_S32x1024_1_1_0_0_n_n none l r (constant S32x1024 .f32 0x00000000#32) (ix2 p q)
      = ∑ j : Fin 1024, l (ix2 p j) * r (ix2 q j) := by
  simp only [matmul]
  rw [Ideal.matmul_constant_zero_apply, ← Equiv.sum_comp (ValueIdx.contrEquiv1 dot_S32x1024_S1024x1024_S32x1024_1_1_0_0_n_n 1024 rfl rfl).symm]
  refine Finset.sum_congr rfl fun k _ => ?_
  have hk := ValueIdx.contrEquiv1_symm_val dot_S32x1024_S1024x1024_S32x1024_1_1_0_0_n_n 1024 rfl rfl k
  have el : dot_S32x1024_S1024x1024_S32x1024_1_1_0_0_n_n.lhsIdx (ix2 p q) ((ValueIdx.contrEquiv1 dot_S32x1024_S1024x1024_S32x1024_1_1_0_0_n_n 1024 rfl rfl).symm k) = ix2 p k := funext fun a => Fin.ext (by
    match a with
    | ⟨0, _⟩ => exact tile_lhs_0 _ _
    | ⟨1, _⟩ => exact (tile_lhs_1 _ _).trans hk)
  have er : dot_S32x1024_S1024x1024_S32x1024_1_1_0_0_n_n.rhsIdx (ix2 p q) ((ValueIdx.contrEquiv1 dot_S32x1024_S1024x1024_S32x1024_1_1_0_0_n_n 1024 rfl rfl).symm k) = ix2 q k := funext fun a => Fin.ext (by
    match a with
    | ⟨0, _⟩ => exact tile_rhs_0 _ _
    | ⟨1, _⟩ => exact (tile_rhs_1 _ _).trans hk)
  rw [el, er]

/-- The tile's positional sum at row `p` and channel `q`. -/
theorem tile_sum_apply (x : FVec Ideal S32x64x1024 .f32) (p : Fin 32) (q : Fin 1024) :
    multiReduction (F := Ideal) .add [1] S32x1024 x 0x00000000#32 reduces_S32x64x1024_S32x1024 (.inl rfl) rfl (ix2 p q)
      = ∑ k : Fin 64, x (ix3 p k q) := by
  refine (Ideal.multiReduction_add_single x 0x00000000#32 reduces_S32x64x1024_S32x1024 (.inl rfl) rfl (ix2 p q)).trans ?_
  refine Finset.sum_congr rfl fun k _ => congrArg x (funext fun a => Fin.ext ?_)
  match a with | ⟨0, _⟩ => rfl | ⟨1, _⟩ => rfl | ⟨2, _⟩ => rfl

/-- The stored value at row `p` of the tile and channel `q`. -/
theorem pay_apply (x0 : Vec Ideal S32x64x1024 .f32) (x1 : Vec Ideal S32x1024 .f32) (x2 : Vec Ideal S1024x1024 .f32)
    (p : Fin 32) (q : Fin 1024) :
    k0_pay1 (F := Ideal) x0 x1 x2 (ix2 p q)
      = (∑ k : Fin 64, x0 (ix3 p k q)) * (∑ j : Fin 1024, x1 (ix2 p j) * x2 (ix2 q j)) := by
  unfold k0_pay1
  refine (mulf_apply _ _ _).trans ?_
  refine congrArg₂ (· * ·) (tile_sum_apply x0 p q) ?_
  exact tile_matmul_apply _ _ p q

end Cert.Fusion

end
-- ==== Proof.RefValue.lean ====
/-
  The reference's result is the fused function.

  The reference adds the zero constant to the positional sum of the cloth latent, contracts the
  second axes of `body` and `f`, and multiplies the two arrays entry by entry. Read at an index
  `(b, c)` that is `(0 + Σ_k cloth[b, k, c]) · (Σ_j body[b, j] · f[c, j])`, and `0 + x = x` on the
  extended reals.
-/
import proofs.«120858_j74045236183240_1_alg».proof.Proof.Gen.ReferenceIdeal.Read
import proofs.«120858_j74045236183240_1_alg».proof.Proof.Spec

noncomputable section

open scoped BigOperators

namespace Cert.Fusion

open Idealize.ShloMosaic Idealize.ShloMosaic.ValueIdx Cert.ReferenceIdeal Cert.ReferenceIdeal.Read

/-- The reference's last stage, as a function of the three argument arrays, is `fused`. -/
theorem reference_eq_fused (cloth : FVec Ideal S128x64x1024 .f32) (body : FVec Ideal S128x1024 .f32)
    (f : FVec Ideal S1024x1024 .f32) :
    val_main_v2 (F := Ideal) cloth body f = fused cloth body f := by
  funext i
  have e0 : ∀ k : Fin 64, idx_main_v0 i k = ix3 (n0 := 128) (n1 := 64) (n2 := 1024) (i 0) k (i 1) := fun k =>
    funext fun a => by match a with | ⟨0, _⟩ => rfl | ⟨1, _⟩ => rfl | ⟨2, _⟩ => rfl
  have el : ∀ j : Fin 1024, lidx_main_v1 i j = ix2 (n0 := 128) (n1 := 1024) (i 0) j := fun j =>
    funext fun a => by match a with | ⟨0, _⟩ => rfl | ⟨1, _⟩ => rfl
  have er : ∀ j : Fin 1024, ridx_main_v1 i j = ix2 (n0 := 1024) (n1 := 1024) (i 1) j := fun j =>
    funext fun a => by match a with | ⟨0, _⟩ => rfl | ⟨1, _⟩ => rfl
  rw [val_main_v2_apply, val_main_v0_apply, val_main_v1_apply, val_main_cst_apply]
  simp only [e0, el, er, Ideal.mulf_def, Ideal.ofBits_def, Ideal.ofBits_zero_f32, zero_add]
  rfl

end Cert.Fusion

end
-- ==== Proof.Blocks.lean ====
/-
  From batch tiles to the whole result.

  The grid has four points; point `t` works on batch rows `32·t … 32·t + 31`: its cloth tile is those
  rows of the cloth latent (all positions, all channels), its body tile those rows of `body`, the matrix
  `f` is read whole at every point, and the tile written back is those rows of the result. So the entry
  `(p, q)` of the tile written at `t` is the fused function at `(32·t + p, q)`, and since every batch row
  `b` lies in the tile of point `b / 32`, the four tiles fill the result array.
-/
import proofs.«120858_j74045236183240_1_alg».proof.Proof.Gen.KernelIdeal.Value
import proofs.«120858_j74045236183240_1_alg».proof.Proof.Spec
import proofs.«120858_j74045236183240_1_alg».proof.Proof.Payload

noncomputable section

open scoped BigOperators

open Idealize.ShloMosaic Idealize.ShloMosaic.TcCoe Idealize.SL.Sem
open Idealize.ShloMosaic.Pipeline (Dat)

namespace Cert.Fusion

open Idealize.ShloMosaic.ValueIdx Cert.KernelIdeal Cert.KernelIdeal.Gen

variable (m : (ℓ : Loc nD τ sig) → Buf (Elt Ideal) ℓ) (ρ : Dev nD → PrngReg)

theorem origin2 : (![0, 0] : Fin 2 → Nat) = fun _ => 0 := funext fun a => by fin_cases a <;> rfl
theorem origin3 : (![0, 0, 0] : Fin 3 → Nat) = fun _ => 0 := funext fun a => by fin_cases a <;> rfl

/-- The block index of every window at every grid point: the batch axis moves with the point, every other
    axis stays at block 0; there are four points. -/
theorem tile_index : ∀ t : Fin cfg0.N,
    win0_0.index t (0 : Fin 3) = t.val ∧ win0_0.index t (1 : Fin 3) = 0 ∧ win0_0.index t (2 : Fin 3) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ t.val < 4 :=
  (by decide +kernel : ∀ t : Fin grid0.N, _)

/-- The cloth tile at point `t`: row `p` of the tile is batch row `32·t + p` of the cloth latent. -/
theorem cloth_tile_apply (c : Dev nD) (t : Fin cfg0.N) (p : Fin 32) (k : Fin 64) (q : Fin 1024) (b : Fin 128)
    (hb : b.val = 32 * t.val + p.val) :
    (iblk m c 0 t : Vec Ideal S32x64x1024 .f32) (ix3 p k q)
      = (m ((c : Thread nD τ).loc main_arg0) : S128x64x1024.Idx → Elt Ideal .f32) (ix3 b k q) := by
  obtain ⟨h0, h1, h2, -⟩ := tile_index t
  unfold iblk
  rw [View.read_apply]
  show V m c main_arg0 _ = m (c.tc.loc main_arg0) _
  unfold V
  congr 1
  funext a
  apply Fin.ext
  match a with
  | ⟨0, _⟩ => show win0_0.index t 0 * 32 + 1 * p.val = b.val; rw [h0, hb]; omega
  | ⟨1, _⟩ => show win0_0.index t 1 * 64 + 1 * k.val = k.val; rw [h1]; omega
  | ⟨2, _⟩ => show win0_0.index t 2 * 1024 + 1 * q.val = q.val; rw [h2]; omega

/-- The body tile at point `t`: row `p` of the tile is row `32·t + p` of `body`. -/
theorem body_tile_apply (c : Dev nD) (t : Fin cfg0.N) (p : Fin 32) (j : Fin 1024) (b : Fin 128)
    (hb : b.val = 32 * t.val + p.val) :
    (iblk m c 1 t : Vec Ideal S32x1024 .f32) (ix2 p j)
      = (m ((c : Thread nD τ).loc main_arg1) : S128x1024.Idx → Elt Ideal .f32) (ix2 b j) := by
  obtain ⟨-, -, -, h0, h1, -⟩ := tile_index t
  unfold iblk
  rw [View.read_apply]
  show V m c main_arg1 _ = m (c.tc.loc main_arg1) _
  unfold V
  congr 1
  funext a
  apply Fin.ext
  match a with
  | ⟨0, _⟩ => show win0_1.index t 0 * 32 + 1 * p.val = b.val; rw [h0, hb]; omega
  | ⟨1, _⟩ => show win0_1.index t 1 * 1024 + 1 * j.val = j.val; rw [h1]; omega

/-- The matrix tile at every point is the whole matrix `f`. -/
theorem f_tile_apply (c : Dev nD) (t : Fin cfg0.N) (q : Fin 1024) (j : Fin 1024) :
    (iblk m c 2 t : Vec Ideal S1024x1024 .f32) (ix2 q j)
      = (m ((c : Thread nD τ).loc main_arg2) : S1024x1024.Idx → Elt Ideal .f32) (ix2 q j) := by
  obtain ⟨-, -, -, -, -, h0, h1, -⟩ := tile_index t
  unfold iblk
  rw [View.read_apply]
  show V m c main_arg2 _ = m (c.tc.loc main_arg2) _
  unfold V
  congr 1
  funext a
  apply Fin.ext
  match a with
  | ⟨0, _⟩ => show win0_2.index t 0 * 1024 + 1 * q.val = q.val; rw [h0]; omega
  | ⟨1, _⟩ => show win0_2.index t 1 * 1024 + 1 * j.val = j.val; rw [h1]; omega

/-- The result, as a function of the launch contents of the three arguments on core `c`. -/
abbrev result (c : Dev nD) : Buf (Elt Ideal) ((c : Thread nD τ).loc main_v0) :=
  fused (m ((c : Thread nD τ).loc main_arg0)) (m ((c : Thread nD τ).loc main_arg1)) (m ((c : Thread nD τ).loc main_arg2))

/-- What point `t` writes back is tile `t` of the result. -/
theorem flushed_eq (c : Dev nD) (t : Fin cfg0.N) :
    (dats m 0 c).flushed 3 t = ((cfg0.win 3).blk t).view.read (Elt Ideal) (result m c) := by
  obtain ⟨-, -, -, -, -, -, -, h30, h31, ht⟩ := tile_index t
  rw [Cert.KernelIdeal.Value.flushed3]
  unfold out0_3
  rw [View.canon_unit_zero origin2]
  simp only [View.ld_unit_zero (S := S32x64x1024) origin3, View.ld_unit_zero (S := S32x1024) origin2,
    View.ld_unit_zero (S := S1024x1024) origin2]
  funext y
  obtain ⟨p, q, rfl⟩ : ∃ (p : Fin 32) (q : Fin 1024), y = ix2 p q := ⟨y 0, y 1, eq_ix2 y⟩
  have hb : 32 * t.val + p.val < 128 := by have := p.isLt; omega
  have e3 : ((cfg0.win 3).blk t).view.emb (ix2 p q) = ix2 (n0 := 128) (n1 := 1024) ⟨32 * t.val + p.val, hb⟩ q := by
    funext a
    apply Fin.ext
    match a with
    | ⟨0, _⟩ => show win0_3.index t 0 * 32 + 1 * p.val = 32 * t.val + p.val; rw [h30]; omega
    | ⟨1, _⟩ => show win0_3.index t 1 * 1024 + 1 * q.val = q.val; rw [h31]; omega
  rw [View.read_apply, e3]
  show k0_pay1 (F := Ideal) (iblk m c 0 t) (iblk m c 1 t) (iblk m c 2 t) (ix2 p q) = _
  refine (pay_apply (iblk m c 0 t) (iblk m c 1 t) (iblk m c 2 t) p q).trans ?_
  refine (congrArg₂ (· * ·) ?_ ?_).trans (fused_apply _ _ _ ⟨32 * t.val + p.val, hb⟩ q).symm
  · exact Finset.sum_congr rfl fun k _ => cloth_tile_apply m c t p k q _ rfl
  · exact Finset.sum_congr rfl fun j _ =>
      congrArg₂ (· * ·) (body_tile_apply m c t p j _ rfl) (f_tile_apply m c t q j)

/-- An index of the result array is in tile `t` iff each coordinate is in the tile's range on its axis. -/
theorem mem_tile (t : Fin cfg0.N) (i : S128x1024.Idx) :
    i ∈ ((cfg0.win 3).blk t).view.set ↔ ∀ a : Fin 2, win0_3.index t a * S32x1024.size a ≤ (i a).val
      ∧ (i a).val < win0_3.index t a * S32x1024.size a + S32x1024.size a := by
  show i ∈ ((View.whole main_v0).slice (win0_3.rect t)).set ↔ _
  rw [View.set_slice_whole, Rect.mem_set_unit]
  exact Iff.rfl

/-- Every index of the result array is in the tile of the point its batch row belongs to. -/
theorem covered (i : S128x1024.Idx) :
    ∃ t : Fin cfg0.N, (cfg0.win 3).flush t = true ∧ i ∈ ((cfg0.win 3).blk t).view.set := by
  have hi0 : (i 0).val < 128 := (i 0).isLt
  have hi1 : (i 1).val < 1024 := (i 1).isLt
  have hN : cfg0.N = 4 := N_0
  obtain ⟨t, ht⟩ : ∃ t : Fin cfg0.N, t.val = (i 0).val / 32 := ⟨⟨(i 0).val / 32, by rw [hN]; omega⟩, rfl⟩
  obtain ⟨-, -, -, -, -, -, -, h30, h31, -⟩ := tile_index t
  refine ⟨t, flush0_3 t, ?_⟩
  rw [mem_tile]
  intro a
  match a with
  | ⟨0, _⟩ =>
    show win0_3.index t 0 * 32 ≤ (i 0).val ∧ (i 0).val < win0_3.index t 0 * 32 + 32
    rw [h30, ht]; omega
  | ⟨1, _⟩ =>
    show win0_3.index t 1 * 1024 ≤ (i 1).val ∧ (i 1).val < win0_3.index t 1 * 1024 + 1024
    rw [h31]; omega

/-- The result array after the run is the fused function of the arguments. -/
theorem final (c : Dev nD) : (dats m 0 c).arrAt 3 cfg0.N = result m c :=
  (dats m 0 c).arrAt_eq_of_cover 3 (result m c) (fun t _ => flushed_eq m c t) covered

/-- The kernel's run, read: the result array at the fused function of the arguments, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩)
    (Cert.KernelIdeal.Value.run_blocks m ρ)

end Cert.Fusion

end
-- ==== Proof.lean ====
/-
  The certificate of the cloth-fusion kernel against its reference, over the extended reals.

  Both programs compute, for a batch row `b` and a channel `c`,
    out[b, c] = (Σ_k cloth[b, k, c]) · (Σ_j body[b, j] · f[c, j]).
  The kernel does it on four tiles of 32 batch rows each (`Payload`: one entry of a tile; `Blocks`:
  the tiles are rows of the whole result and fill it); the reference does it on the whole arrays, with a
  zero added to the positional sum (`RefValue`). The two sides agree as finite sums in a commutative
  monoid; no distributivity or cancellation is used, so the finiteness of the inputs is not needed for the
  value. The kernel's narrowing of `body` and `f` to bf16 is the identity on the extended reals, and the
  idealized kernel is the kernel's own text, so there is nothing to preserve beyond it.
  The three frames are the generated runs: the two kernels' frame runs, and the reference's run with its
  result dropped.
-/
import proofs.«120858_j74045236183240_1_alg».proof.Defs
import proofs.«120858_j74045236183240_1_alg».proof.Proof.Gen.Kernel
import proofs.«120858_j74045236183240_1_alg».proof.Proof.Gen.Kernel.Skeleton
import proofs.«120858_j74045236183240_1_alg».proof.Proof.Gen.Kernel.Launch
import proofs.«120858_j74045236183240_1_alg».proof.Proof.Gen.Kernel.Points
import proofs.«120858_j74045236183240_1_alg».proof.Proof.Gen.Kernel.Frame
import proofs.«120858_j74045236183240_1_alg».proof.Proof.Gen.KernelIdeal
import proofs.«120858_j74045236183240_1_alg».proof.Proof.Gen.KernelIdeal.Skeleton
import proofs.«120858_j74045236183240_1_alg».proof.Proof.Gen.KernelIdeal.Launch
import proofs.«120858_j74045236183240_1_alg».proof.Proof.Gen.KernelIdeal.Points
import proofs.«120858_j74045236183240_1_alg».proof.Proof.Gen.KernelIdeal.Frame
import proofs.«120858_j74045236183240_1_alg».proof.Proof.Gen.ReferenceIdeal
import proofs.«120858_j74045236183240_1_alg».proof.Proof.Gen.Pre_finite_inputs
import proofs.«120858_j74045236183240_1_alg».proof.Proof.Gen.KernelIdeal.Value
import proofs.«120858_j74045236183240_1_alg».proof.Proof.Gen.ReferenceIdeal.Run
import proofs.«120858_j74045236183240_1_alg».proof.Proof.Gen.ReferenceIdeal.Read
import proofs.«120858_j74045236183240_1_alg».proof.Proof.Spec
import proofs.«120858_j74045236183240_1_alg».proof.Proof.Payload
import proofs.«120858_j74045236183240_1_alg».proof.Proof.RefValue
import proofs.«120858_j74045236183240_1_alg».proof.Proof.Blocks
import Idealize.ShloMosaic.Adequacy
import Idealize.ShloMosaic.Init

noncomputable section

namespace Cert.Proof

open Idealize.ShloMosaic Idealize.SL.Sem Cert.Kernel

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The idealized kernel is the kernel's own text: the ledger of rewrites is empty. -/
theorem preserves : Cert.preserves_Kernel_KernelIdeal := trivial

/-- From memories that agree on the three arguments, the kernel's result array ends at the fused function of
    its arguments (the tiles fill it) and the reference's at the same function of its own (zero plus the
    positional sum, times the contraction), which are the same arrays. -/
theorem algebraic : Cert.algebraic_KernelIdeal_ReferenceIdeal := by
  intro m ρ m' ρ' _ hagree
  refine ⟨fun c => Cert.Fusion.result m c, Cert.Fusion.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v2_eq, Cert.Fusion.reference_eq_fused, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
